-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.BlockProduct.lean ====
/-
  One grid point of the kernel, as mathematics. The body loads a 1024 × 1024 block `a` of the batch, the whole
  1024 × 1024 matrix `v` that the host laid out contraction-major (so `v[k, o]` is the weight of input `k` for output `o`),
  and the bias as a single row `β`; it narrows `a` (a change of float format: the identity on extended reals),
  multiplies into a zero accumulator and adds the row to every row of the product. Entry (p, q) of what it
  stores is therefore   (∑ k, a[p, k] · v[k, q]) + β[0, q].
-/
import proofs.«411203_j16844861735164_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The product's operand indices: rows of the left factor, columns of the right -/

/-- The left factor is read in the output's row … -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … at the summation index; -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right factor at the summation index … -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … in the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator, entry (p, q): the sum over `k` of `a[p, k] · v[k, q]`. -/
theorem product_entry (a : FVec Ideal S1024x1024 .bf16) (v : FVec Ideal S1024x1024 .bf16) (p q : Fin 1024) :
    matmul dot_S1024x1024_S1024x1024_S1024x1024_1_0_0_1_n_n none a v (constant (F := Ideal) S1024x1024 .f32 0x00000000#32) (ix2 p q)
      = ∑ k : Fin 1024, a (ix2 p k) * v (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun b => Fin.ext (by
    match b with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun b => Fin.ext (by
    match b with
    | ⟨0, _⟩ => exact (rhs_row _ _).trans hk
    | ⟨1, _⟩ => exact rhs_col _ _)
  rw [el, er]

/-- The bias row repeated down the block: every row of the broadcast is the one row it came from. -/
theorem bias_rows (β : FVec Ideal S1x1024 .f32) (p q : Fin 1024) :
    broadcastTo S1024x1024 β broadcasts_S1x1024_S1024x1024 (ix2 p q) = β (ix2 0 q) :=
  broadcastTo_apply β broadcasts_S1x1024_S1024x1024 (ix2 p q) (ix2 0 q) (fun b => match b with
    | ⟨0, _⟩ => by show 0 = if (1 : Nat) = 1 then 0 else _; rw [if_pos rfl]
    | ⟨1, _⟩ => by show q.val = if (1024 : Nat) = 1 then 0 else q.val; rw [if_neg (by decide)])

/-- WHAT ONE GRID POINT STORES, entry (p, q): `(∑ k, a[p, k] · v[k, q]) + β[0, q]`. -/
theorem stored_entry (a : Vec Ideal S1024x1024 .f32) (v : Vec Ideal S1024x1024 .bf16) (β : Vec Ideal S1x1024 .f32) (p q : Fin 1024) :
    k0_pay1 (F := Ideal) a v β (ix2 p q) = (∑ k : Fin 1024, a (ix2 p k) * v (ix2 k q)) + β (ix2 0 q) := by
  unfold k0_pay1
  simp only [shapeCast_self]
  refine (addf_apply _ _ _).trans ?_
  rw [product_entry, bias_rows]
  rfl

end Cert.KernelIdeal.Block

end
-- ==== Proof.Linear.lean ====
/-
  The function both programs compute: a linear layer over the extended reals.
  For a batch `x` of 16384 rows of length 1024, a weight matrix `w` of 1024 output rows of length 1024 and a
  bias `b` of length 1024, entry (r, o) of the result is the inner product of row `r` of `x` with row `o` of `w`,
  plus `b o`:   y[r, o] = (∑ k, x[r, k] · w[o, k]) + b[o].
  Nothing here depends on either program.
-/
import Idealize.ShloMosaic.PureOps.Ideal
import Idealize.ShloMosaic.Lib.ValueIdx

noncomputable section

namespace Cert.Linear

open Idealize.ShloMosaic Idealize.ShloMosaic.ValueIdx

/-- `y[r, o] = (∑ k, x[r, k] · w[o, k]) + b[o]` on the extended reals: each output entry contracts the LAST axis of
    both matrices (the weight is stored output-major), then adds the output's bias. -/
def linear (x : (⟨2, ![16384, 1024]⟩ : Shape).Idx → EReal) (w : (⟨2, ![1024, 1024]⟩ : Shape).Idx → EReal)
    (b : (⟨1, ![1024]⟩ : Shape).Idx → EReal) : (⟨2, ![16384, 1024]⟩ : Shape).Idx → EReal :=
  fun i => (∑ k : Fin 1024, x (ix2 (i 0) k) * w (ix2 (i 1) k)) + b (ix1 (i 1))

/-- The same entry, read at explicit coordinates. -/
theorem linear_ix2 (x : (⟨2, ![16384, 1024]⟩ : Shape).Idx → EReal) (w : (⟨2, ![1024, 1024]⟩ : Shape).Idx → EReal)
    (b : (⟨1, ![1024]⟩ : Shape).Idx → EReal) (r : Fin 16384) (o : Fin 1024) :
    linear x w b (ix2 r o) = (∑ k : Fin 1024, x (ix2 r k) * w (ix2 o k)) + b (ix1 o) := rfl

end Cert.Linear

end
-- ==== Proof.KernelArray.lean ====
/-
  The kernel's whole result array. The grid has 16 points; point `t` works on rows 1024·t … 1024·t + 1023 of the
  batch, on the whole contraction-major matrix the host prepared (the weight narrowed and transposed, so its entry
  (k, o) is `w[o, k]`) and on the bias reshaped to one row, and writes rows 1024·t … 1024·t + 1023 of the result.
  Entry (p, q) of what point `t` stores is (∑ k, x[1024·t + p, k] · w[q, k]) + b[q]: the linear layer's entry
  (1024·t + p, q). The 16 row blocks tile the result, so the array ends holding the linear layer everywhere.
-/
import proofs.«411203_j16844861735164_3_alg».proof.Proof.Gen.KernelIdeal.Value
import proofs.«411203_j16844861735164_3_alg».proof.Proof.BlockProduct
import proofs.«411203_j16844861735164_3_alg».proof.Proof.Linear
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What the host prepared before the region -/

/-- The matrix the region multiplies by: the weight, narrowed (the identity here) and transposed. -/
theorem staged_weight (c : Dev nD) : (V m c main_v1 : S1024x1024.Idx → EReal)
    = transpose S1024x1024 [1, 0] (truncf (F := Ideal) .bf16 (m ((c : Thread nD τ).loc main_arg1) : FVec Ideal S1024x1024 .f32) bitsLt_bf16_f32 : FVec Ideal S1024x1024 .bf16) transposes_S1024x1024_S1024x1024_1_0 := by
  dsimp only [Gen.V, Gen.hostOps0]; after_results

/-- Its entry (k, o) is the weight's entry (o, k). -/
theorem staged_weight_entry (c : Dev nD) (z i : S1024x1024.Idx) (h0 : (i 0).val = (z 1).val) (h1 : (i 1).val = (z 0).val) :
    (V m c main_v1 : S1024x1024.Idx → EReal) z = (m ((c : Thread nD τ).loc main_arg1) : S1024x1024.Idx → EReal) i := by
  rw [staged_weight]
  exact transpose_apply [1, 0] _ transposes_S1024x1024_S1024x1024_1_0 z i (fun b => match b with
    | ⟨0, _⟩ => h1
    | ⟨1, _⟩ => h0)

/-- The bias as the region finds it: one row of 1024. -/
theorem staged_bias (c : Dev nD) : (V m c main_v2 : S1x1024.Idx → EReal)
    = shapeCast S1x1024 (m ((c : Thread nD τ).loc main_arg2) : S1024.Idx → EReal) shapeCasts_S1024_S1x1024 := by
  dsimp only [Gen.V, Gen.hostOps0]; after_results; rfl

/-- Its entry (0, o) is the bias's entry o. -/
theorem staged_bias_entry (c : Dev nD) (z : S1x1024.Idx) (i : S1024.Idx) (h : (i 0).val = (z 1).val) :
    (V m c main_v2 : S1x1024.Idx → EReal) z = (m ((c : Thread nD τ).loc main_arg2) : S1024.Idx → EReal) i := by
  rw [staged_bias]
  refine shapeCast_apply _ shapeCasts_S1024_S1x1024 z i ?_
  rw [Shape.rowMajor_val_one, Shape.rowMajor_val_two]
  have hz0 : (z 0).val < 1 := (z 0).isLt
  show (i 0).val = (z 0).val * 1024 + (z 1).val
  omega

/-! ## The blocks a grid point sees -/

/-- The printed index maps over the 16 points: the batch and the result move one row block per point; the matrix
    and the bias row stay where they are. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The batch block at point `t` is rows 1024·t … 1024·t + 1023 of the batch. -/
theorem batch_block_entry (c : Dev nD) (t : Fin cfg0.N) (z : S1024x1024.Idx) (i : S16384x1024.Idx)
    (h0 : (i 0).val = t.val * 1024 + (z 0).val) (h1 : (i 1).val = (z 1).val) :
    (iblk m c 0 t : Vec Ideal S1024x1024 .f32) z = (m ((c : Thread nD τ).loc main_arg0) : S16384x1024.Idx → EReal) i := by
  obtain ⟨e00, e01, -⟩ := block_indices t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * (z 0).val = (i 0).val; rw [e00, h0]; omega
  | ⟨1, _⟩ => show win0_0.index t 1 * 1024 + 1 * (z 1).val = (i 1).val; rw [e01, h1]; omega

/-- The matrix block at every point is the whole prepared matrix: entry (k, o) is the weight's (o, k). -/
theorem matrix_block_entry (c : Dev nD) (t : Fin cfg0.N) (z i : S1024x1024.Idx)
    (h0 : (i 0).val = (z 1).val) (h1 : (i 1).val = (z 0).val) :
    (iblk m c 1 t : Vec Ideal S1024x1024 .bf16) z = (m ((c : Thread nD τ).loc main_arg1) : S1024x1024.Idx → EReal) i := by
  obtain ⟨-, -, e10, e11, -⟩ := block_indices t
  unfold iblk
  rw [View.read_apply]
  show V m c main_v1 _ = m (c.tc.loc main_arg1) _
  refine staged_weight_entry m c _ i ?_ ?_
  · show (i 0).val = win0_1.index t 1 * 1024 + 1 * (z 1).val; rw [e11, h0]; omega
  · show (i 1).val = win0_1.index t 0 * 1024 + 1 * (z 0).val; rw [e10, h1]; omega

/-- The bias block at every point is the whole bias row. -/
theorem bias_block_entry (c : Dev nD) (t : Fin cfg0.N) (z : S1x1024.Idx) (i : S1024.Idx) (h : (i 0).val = (z 1).val) :
    (iblk m c 2 t : Vec Ideal S1x1024 .f32) z = (m ((c : Thread nD τ).loc main_arg2) : S1024.Idx → EReal) i := by
  obtain ⟨-, -, -, -, e20, e21, -⟩ := block_indices t
  unfold iblk
  rw [View.read_apply]
  show V m c main_v2 _ = m (c.tc.loc main_arg2) _
  refine staged_bias_entry m c _ i ?_
  show (i 0).val = win0_2.index t 1 * 1024 + 1 * (z 1).val; rw [e21, h]; omega

/-- Where entry `y` of point `t`'s output block lands in the result: row 1024·t + y₀, column y₁. -/
theorem out_block_coord (t : Fin cfg0.N) (y : S1024x1024.Idx) :
    ((((cfg0.win 3).blk t).view.emb y) (0 : Fin 2)).val = t.val * 1024 + (y 0).val
    ∧ ((((cfg0.win 3).blk t).view.emb y) (1 : Fin 2)).val = (y 1).val := by
  obtain ⟨-, -, -, -, -, -, e30, e31⟩ := block_indices t
  constructor
  · show win0_3.index t 0 * 1024 + 1 * (y 0).val = _; rw [e30]; omega
  · show win0_3.index t 1 * 1024 + 1 * (y 1).val = _; rw [e31]; omega

/-! ## One point's stores are a row block of the linear layer -/

/-- If a point's batch block holds row `i₀` of `X` in its row `y₀`, its matrix holds row `i₁` of `W` in its column `y₁`, and
    its bias row holds `B i₁` at `y₁`, then entry `y` of what the body stores is the linear layer's entry `i`. -/
theorem point_entry (a : Vec Ideal S1024x1024 .f32) (v : Vec Ideal S1024x1024 .bf16) (β : Vec Ideal S1x1024 .f32)
    (X : S16384x1024.Idx → EReal) (W : S1024x1024.Idx → EReal) (B : S1024.Idx → EReal)
    (y : S1024x1024.Idx) (i : S16384x1024.Idx)
    (ha : ∀ k : Fin 1024, a (ix2 (y 0) k) = X (ix2 (i 0) k))
    (hv : ∀ k : Fin 1024, v (ix2 k (y 1)) = W (ix2 (i 1) k))
    (hβ : β (ix2 0 (y 1)) = B (ix1 (i 1))) :
    k0_pay1 (F := Ideal) a v β y = Cert.Linear.linear X W B i := by
  refine ((congrArg (k0_pay1 (F := Ideal) a v β) (eq_ix2 y)).trans (Cert.KernelIdeal.Block.stored_entry a v β (y 0) (y 1))).trans ?_
  unfold Cert.Linear.linear
  rw [hβ]
  exact congrArg (· + B (ix1 (i 1))) (Finset.sum_congr rfl fun k _ => by rw [ha k, hv k])

/-- WHAT POINT `t` WRITES BACK is block `t` of the linear layer of the three argument arrays. -/
theorem flushed_eq (c : Dev nD) (t : Fin cfg0.N) :
    (dats m 0 c).flushed 3 t = ((cfg0.win 3).blk t).view.read (Elt Ideal)
      (Cert.Linear.linear (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1024x1024) zero_offsets, View.ld_unit_zero (S := S1x1024) zero_offsets]
  funext y
  obtain ⟨r0, r1⟩ := out_block_coord t y
  show k0_pay1 (F := Ideal) (iblk m c 0 t) (iblk m c 1 t) (iblk m c 2 t) y
    = Cert.Linear.linear (m ((c : Thread nD τ).loc main_arg0)) (m ((c : Thread nD τ).loc main_arg1)) (m ((c : Thread nD τ).loc main_arg2)) (((cfg0.win 3).blk t).view.emb y)
  refine point_entry (iblk m c 0 t) (iblk m c 1 t) (iblk m c 2 t) (m ((c : Thread nD τ).loc main_arg0)) (m ((c : Thread nD τ).loc main_arg1)) (m ((c : Thread nD τ).loc main_arg2)) y (((cfg0.win 3).blk t).view.emb y) (fun k => ?_) (fun k => ?_) ?_
  · exact batch_block_entry m c t _ _ r0 rfl
  · exact matrix_block_entry m c t _ _ r1 rfl
  · exact bias_block_entry m c t _ _ r1

/-! ## The 16 row blocks tile the result -/

/-- An index of the result is in point `t`'s block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row `r` of the result is written by point `r / 1024`. -/
theorem covered (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, e30, e31⟩ := block_indices t
  refine ⟨t, flush0_3 t, ?_⟩
  rw [mem_block]
  intro a
  match a with
  | ⟨0, _⟩ => show win0_3.index t 0 * 1024 ≤ (i 0).val ∧ (i 0).val < win0_3.index t 0 * 1024 + 1024; rw [e30, ht]; omega
  | ⟨1, _⟩ => show win0_3.index t 1 * 1024 ≤ (i 1).val ∧ (i 1).val < win0_3.index t 1 * 1024 + 1024; rw [e31]; omega

/-- THE RESULT ARRAY after the run is the linear layer of the argument arrays. -/
theorem final (c : Dev nD) : (dats m 0 c).arrAt 3 cfg0.N
    = Cert.Linear.linear (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result at the linear layer of the arguments, the arguments unchanged. -/
theorem run : θ_run defs (onTc (τ := τ) (main (F := Ideal))) ⟨m, fun _ => 0, ρ⟩ fun r => ∀ c : Dev nD,
      r.2.mem ((c : Thread nD τ).loc main_v3)
        = Cert.Linear.linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.ReferenceLinear.lean ====
/-
  The reference, entry by entry. It contracts the last axis of the batch with the last axis of the weight
  (an einsum 'bi,oi->bo'), spreads the bias along the batch axis and adds: entry (r, o) of its result is
  (∑ k, x[r, k] · w[o, k]) + b[o], which is the linear layer of Linear.lean, word for word.
-/
import proofs.«411203_j16844861735164_3_alg».proof.Proof.Gen.ReferenceIdeal.Read
import proofs.«411203_j16844861735164_3_alg».proof.Proof.Linear

noncomputable section

namespace Cert.ReferenceIdeal.RefLinear

open Cert.ReferenceIdeal Cert.ReferenceIdeal.Read Idealize.ShloMosaic Idealize.ShloMosaic.ValueIdx

/-- The reference's last stage is the linear layer of its three arguments: the contraction reads row `i 0` of the batch
    and row `i 1` of the weight at the summation index, and the two broadcasts read the bias at `i 1`. -/
theorem result_is_linear (x : (⟨S16384x1024, .f32⟩ : BufTy).Contents (Elt Ideal)) (w : (⟨S1024x1024, .f32⟩ : BufTy).Contents (Elt Ideal))
    (b : (⟨S1024, .f32⟩ : BufTy).Contents (Elt Ideal)) :
    val_main_v3 (F := Ideal) x w b = Cert.Linear.linear x w b := by
  funext i
  have batch_row : ∀ k : Fin 1024, lidx_main_v0 i k = ix2 (i 0) k := fun k => funext fun a => by
    match a with | ⟨0, _⟩ => rfl | ⟨1, _⟩ => rfl
  have weight_row : ∀ k : Fin 1024, ridx_main_v0 i k = ix2 (i 1) k := fun k => funext fun a => by
    match a with | ⟨0, _⟩ => rfl | ⟨1, _⟩ => rfl
  have bias_at : idx_main_v1 (idx_main_v2 i) = ix1 (i 1) := funext fun a => by
    match a with | ⟨0, _⟩ => rfl
  rw [val_main_v3_apply, val_main_v0_apply, val_main_v2_apply, val_main_v1_apply]
  simp only [batch_row, weight_row, bias_at]
  rfl

end Cert.ReferenceIdeal.RefLinear

end
-- ==== Proof.lean ====
/-
  A linear layer, `y = x · wᵀ + b`, two ways. The kernel walks the 16384-row batch in 16 row blocks of 1024; for each it
  multiplies the block by the weight matrix, which the host narrowed to bf16 and transposed beforehand so that the
  product contracts the block's columns with the matrix's rows, and adds the bias row. The reference contracts the last
  axes of the batch and of the weight directly (an einsum 'bi,oi->bo') and adds the bias spread over the batch axis.
  Over the extended reals a change of float format is the identity and both products are plain finite sums, so both
  compute, at every entry (r, o),   (∑ k, x[r, k] · w[o, k]) + b[o]   — the function `Cert.Linear.linear`. No law of
  arithmetic beyond reading both sums over the same index is used, so the inputs' finiteness is never opened.

  Linear.lean states that function. BlockProduct.lean reads one grid point's stored block entry by entry;
  KernelArray.lean reads the blocks each point sees off the argument arrays, shows the 16 output blocks tile the
  result, and concludes the kernel's result array is the linear layer. ReferenceLinear.lean shows the reference's
  last stage is the same function. The kernel's termination and untouched arguments, the reference's run and the
  kernel's run block by block are the generated modules imported below.
-/
import proofs.«411203_j16844861735164_3_alg».proof.Defs
import proofs.«411203_j16844861735164_3_alg».proof.Proof.Gen.Kernel
import proofs.«411203_j16844861735164_3_alg».proof.Proof.Gen.Kernel.Skeleton
import proofs.«411203_j16844861735164_3_alg».proof.Proof.Gen.Kernel.Launch
import proofs.«411203_j16844861735164_3_alg».proof.Proof.Gen.Kernel.Points
import proofs.«411203_j16844861735164_3_alg».proof.Proof.Gen.Kernel.Frame
import proofs.«411203_j16844861735164_3_alg».proof.Proof.Gen.KernelIdeal
import proofs.«411203_j16844861735164_3_alg».proof.Proof.Gen.KernelIdeal.Skeleton
import proofs.«411203_j16844861735164_3_alg».proof.Proof.Gen.KernelIdeal.Launch
import proofs.«411203_j16844861735164_3_alg».proof.Proof.Gen.KernelIdeal.Points
import proofs.«411203_j16844861735164_3_alg».proof.Proof.Gen.KernelIdeal.Frame
import proofs.«411203_j16844861735164_3_alg».proof.Proof.Gen.ReferenceIdeal
import proofs.«411203_j16844861735164_3_alg».proof.Proof.Gen.Pre_finite_inputs
import proofs.«411203_j16844861735164_3_alg».proof.Proof.Gen.KernelIdeal.Value
import proofs.«411203_j16844861735164_3_alg».proof.Proof.Gen.ReferenceIdeal.Run
import proofs.«411203_j16844861735164_3_alg».proof.Proof.Gen.ReferenceIdeal.Read
import proofs.«411203_j16844861735164_3_alg».proof.Proof.KernelArray
import proofs.«411203_j16844861735164_3_alg».proof.Proof.ReferenceLinear
import Idealize.ShloMosaic.Adequacy
import Idealize.ShloMosaic.Init

noncomputable section

namespace Cert.Proof

open Idealize.ShloMosaic Idealize.ShloMosaic.TcCoe Idealize.SL.Sem

/-- The word-level kernel terminates, faults nowhere and leaves its three arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is four host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on `x`, `w` and `b`, end with the result array at
    `(∑ k, x[r, k] · w[o, k]) + b[o]`: the kernel by its 16 row blocks, the reference by its one contraction. -/
theorem algebraic : Cert.algebraic_KernelIdeal_ReferenceIdeal := by
  intro m ρ m' ρ' _ hagree
  refine ⟨fun c => Cert.Linear.linear (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefLinear.result_is_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
